-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S512x256x256 : Shape := ⟨3, ![512, 256, 256]⟩
abbrev S512x256 : Shape := ⟨2, ![512, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S512x256x256 : S_.BroadcastsInDim S512x256x256 (![] : Fin 0 → Fin S512x256x256.rank)
  reducesTo_S512x256x256_S_d0_1_2 : S512x256x256.ReducesTo [0, 1, 2] S_
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S262144x256 .f32) (main_arg1 : FVec F S512x256x256 .f32) (main_arg2 : FVec F S512x256 .f32) (main_arg3 : IVec S262144 32) (main_arg4 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S512x256x256 .f32 := Host.absf main_arg1
  let main_cst_0 : FVec F S_ .f32 := constant S_ .f32 0x7F800000#32
  let main_v5 : FVec F S512x256x256 .f32 := broadcastInDim S512x256x256 ![] bcast_S_S512x256x256 main_cst_0
  let main_v6 : IVec S512x256x256 1 := cmpf .olt main_v4 main_v5
  let main_c_1 : IVec S_ 1 := constantI S_ 1 1#1
  let main_v7 : IVec S_ 1 := (fun x v => Host.reduce IntOp.andi x v reducesTo_S512x256x256_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S262144x256 : Shape := ⟨2, ![262144, 256]⟩
abbrev S512x256x256 : Shape := ⟨3, ![512, 256, 256]⟩
abbrev S512x256 : Shape := ⟨2, ![512, 256]⟩
abbrev S262144 : Shape := ⟨1, ![262144]⟩
abbrev S_ : Shape := ⟨0, ![]⟩
abbrev S512x768x256 : Shape := ⟨3, ![512, 768, 256]⟩
abbrev S262144x1 : Shape := ⟨2, ![262144, 1]⟩
abbrev S262144x2 : Shape := ⟨2, ![262144, 2]⟩
abbrev S512x1x256 : Shape := ⟨3, ![512, 1, 256]⟩
abbrev S4x768x256 : Shape := ⟨3, ![4, 768, 256]⟩
abbrev S4x256x256 : Shape := ⟨3, ![4, 256, 256]⟩
abbrev S4x1x256 : Shape := ⟨3, ![4, 1, 256]⟩
abbrev S1x768x256 : Shape := ⟨3, ![1, 768, 256]⟩
abbrev S768x256 : Shape := ⟨2, ![768, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 45
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S512x256x256, .f32⟩
  | .hbm, ⟨2, _⟩ => ⟨S512x256, .f32⟩
  | .hbm, ⟨3, _⟩ => ⟨S262144, .i32⟩
  | .hbm, ⟨4, _⟩ => ⟨S262144, .i32⟩
  | .hbm, ⟨5, _⟩ => ⟨S_, .f32⟩
  | .hbm, ⟨6, _⟩ => ⟨S512x768x256, .f32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x1, .i32⟩
  | .hbm, ⟨23, _⟩ => ⟨S262144x2, .i32⟩
  | .hbm, ⟨24, _⟩ => ⟨S512x768x256, .f32⟩
  | .hbm, ⟨25, _⟩ => ⟨S512x1x256, .f32⟩
  | .hbm, ⟨26, _⟩ => ⟨S512x768x256, .f32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144x1, .i32⟩
  | .hbm, ⟨43, _⟩ => ⟨S262144x2, .i32⟩
  | .hbm, ⟨44, _⟩ => ⟨S262144x256, .f32⟩
  | .local _ .vmem, ⟨0, _⟩ => ⟨S4x768x256, .f32⟩
  | .local _ .vmem, ⟨1, _⟩ => ⟨S4x768x256, .f32⟩
  | .local _ .vmem, ⟨2, _⟩ => ⟨S4x256x256, .f32⟩
  | .local _ .vmem, ⟨3, _⟩ => ⟨S4x256x256, .f32⟩
  | .local _ .vmem, ⟨4, _⟩ => ⟨S4x1x256, .f32⟩
  | .local _ .vmem, ⟨5, _⟩ => ⟨S4x1x256, .f32⟩
  | .local _ .vmem, ⟨6, _⟩ => ⟨S4x768x256, .f32⟩
  | .local _ .vmem, ⟨7, _⟩ => ⟨S4x768x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x768x256 : S_.BroadcastsInDim S512x768x256 (![] : Fin 0 → Fin S512x768x256.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S512x256_S512x1x256_0_2 : S512x256.BroadcastsInDim S512x1x256 (![0, 2] : Fin 2 → Fin S512x1x256.rank)
  inb_S4x768x256_S1x768x256_0_0_0 : ∀ a, (![0, 0, 0] : Fin 3 → Nat) a + S1x768x256.size a ≤ S4x768x256.size a
  h_S1x768x256 : 0 < S1x768x256.numel
  shapeCasts_S1x768x256_S768x256 : S1x768x256.ShapeCasts S768x256
  bitsLt_bf16_f32 : FTy.bits .bf16 < FTy.bits .f32
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x1x256_S1x1x256_0_0_0 : ∀ a, (![0, 0, 0] : Fin 3 → Nat) a + S1x1x256.size a ≤ S4x1x256.size a
  h_S1x1x256 : 0 < S1x1x256.numel
  shapeCasts_S1x1x256_S1x256 : S1x1x256.ShapeCasts S1x256
  broadcasts_S1x256_S768x256 : S1x256.Broadcasts S768x256
  shapeCasts_S768x256_S1x768x256 : S768x256.ShapeCasts S1x768x256
  inb_S4x768x256_S1x768x256_1_0_0 : ∀ a, (![1, 0, 0] : Fin 3 → Nat) a + S1x768x256.size a ≤ S4x768x256.size a
  inb_S4x256x256_S1x256x256_1_0_0 : ∀ a, (![1, 0, 0] : Fin 3 → Nat) a + S1x256x256.size a ≤ S4x256x256.size a
  inb_S4x1x256_S1x1x256_1_0_0 : ∀ a, (![1, 0, 0] : Fin 3 → Nat) a + S1x1x256.size a ≤ S4x1x256.size a
  inb_S4x768x256_S1x768x256_2_0_0 : ∀ a, (![2, 0, 0] : Fin 3 → Nat) a + S1x768x256.size a ≤ S4x768x256.size a
  inb_S4x256x256_S1x256x256_2_0_0 : ∀ a, (![2, 0, 0] : Fin 3 → Nat) a + S1x256x256.size a ≤ S4x256x256.size a
  inb_S4x1x256_S1x1x256_2_0_0 : ∀ a, (![2, 0, 0] : Fin 3 → Nat) a + S1x1x256.size a ≤ S4x1x256.size a
  inb_S4x768x256_S1x768x256_3_0_0 : ∀ a, (![3, 0, 0] : Fin 3 → Nat) a + S1x768x256.size a ≤ S4x768x256.size a
  inb_S4x256x256_S1x256x256_3_0_0 : ∀ a, (![3, 0, 0] : Fin 3 → Nat) a + S1x256x256.size a ≤ S4x256x256.size a
  inb_S4x1x256_S1x1x256_3_0_0 : ∀ a, (![3, 0, 0] : Fin 3 → Nat) a + S1x1x256.size a ≤ S4x1x256.size a
  scatter_S512x768x256_S262144x2_S262144x256_1_01_01_1_wf : ScatterDims.WF S512x768x256 S262144x2 S262144x256 [1] [0, 1] [0, 1] 1
  dot_S768x256_S256x256_S768x256_1_0_0_1_n_n_wf : DotDims.WF S768x256 S256x256 S768x256 [1] [0] [0] [1] [] []
  gather_S512x768x256_S262144x2_S262144x256_1_01_n_n_01_1_11256_wf : GatherDims.WF S512x768x256 S262144x2 S262144x256 [1] [0, 1] [] [0, 1] [] 1 ![1, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x768x256.size a ≤ S512x768x256.size a
  hwx0_0 : ∀ i : grid0.Coords, EltTy.bits .f32 = 32 ∨ (Rect.block (s := S512x768x256) S4x768x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S512x256x256.size a
  hwx0_1 : ∀ i : grid0.Coords, EltTy.bits .f32 = 32 ∨ (Rect.block (s := S512x256x256) S4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x256.size a ≤ S512x1x256.size a
  hwx0_2 : ∀ i : grid0.Coords, EltTy.bits .f32 = 32 ∨ (Rect.block (s := S512x1x256) S4x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x768x256.size a ≤ S512x768x256.size a
  hwx0_3 : ∀ i : grid0.Coords, EltTy.bits .f32 = 32 ∨ (Rect.block (s := S512x768x256) S4x768x256.size (cc0_transform_3 i) (hinb0_3 i)).WholeWords (EltTy.packing .f32)

variable [Facts₀]

def scatter_S512x768x256_S262144x2_S262144x256_1_01_01_1 : ScatterDims S512x768x256 S262144x2 S262144x256 where
  updateWindowDims := [1]
  insertedWindowDims := [0, 1]
  scatterDimsToOperandDims := [0, 1]
  indexVectorDim := 1
  wf := scatter_S512x768x256_S262144x2_S262144x256_1_01_01_1_wf
def dot_S768x256_S256x256_S768x256_1_0_0_1_n_n : DotDims S768x256 S256x256 S768x256 where
  lhsContracting := [1]
  rhsContracting := [0]
  lhsNonContracting := [0]
  rhsNonContracting := [1]
  lhsBatch := []
  rhsBatch := []
  wf := dot_S768x256_S256x256_S768x256_1_0_0_1_n_n_wf
def gather_S512x768x256_S262144x2_S262144x256_1_01_n_n_01_1_11256 : GatherDims S512x768x256 S262144x2 S262144x256 where
  offsetDims := [1]
  collapsedSliceDims := [0, 1]
  operandBatchingDims := []
  startIndicesBatchingDims := []
  startIndexMap := [0, 1]
  indexVectorDim := 1
  sliceSizes := ![1, 1, 256]
  wf := gather_S512x768x256_S262144x2_S262144x256_1_01_n_n_01_1_11256_wf

abbrev win0_0 : Pipeline.Window sig grid0 :=
  Pipeline.Window.ofSpec (Memref.whole main_v14) S4x768x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4x768x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S512x256x256 : Shape := ⟨3, ![512, 256, 256]⟩
abbrev S512x256 : Shape := ⟨2, ![512, 256]⟩
abbrev S262144 : Shape := ⟨1, ![262144]⟩
abbrev S_ : Shape := ⟨0, ![]⟩
abbrev S512x768x256 : Shape := ⟨3, ![512, 768, 256]⟩
abbrev S262144x1 : Shape := ⟨2, ![262144, 1]⟩
abbrev S262144x2 : Shape := ⟨2, ![262144, 2]⟩
abbrev S512x1x256 : Shape := ⟨3, ![512, 1, 256]⟩

abbrev nBuf : Space → Nat
  | .hbm => 47
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S512x256x256, .f32⟩
  | .hbm, ⟨2, _⟩ => ⟨S512x256, .f32⟩
  | .hbm, ⟨3, _⟩ => ⟨S262144, .i32⟩
  | .hbm, ⟨4, _⟩ => ⟨S262144, .i32⟩
  | .hbm, ⟨5, _⟩ => ⟨S_, .f32⟩
  | .hbm, ⟨6, _⟩ => ⟨S512x768x256, .f32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x1, .i32⟩
  | .hbm, ⟨23, _⟩ => ⟨S262144x2, .i32⟩
  | .hbm, ⟨24, _⟩ => ⟨S512x768x256, .f32⟩
  | .hbm, ⟨25, _⟩ => ⟨S512x768x256, .f32⟩
  | .hbm, ⟨26, _⟩ => ⟨S512x1x256, .f32⟩
  | .hbm, ⟨27, _⟩ => ⟨S512x768x256, .f32⟩
  | .hbm, ⟨28, _⟩ => ⟨S512x768x256, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S262144x1, .i32⟩
  | .hbm, ⟨45, _⟩ => ⟨S262144x2, .i32⟩
  | .hbm, ⟨46, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S_S512x768x256 : S_.BroadcastsInDim S512x768x256 (![] : Fin 0 → Fin S512x768x256.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S512x256_S512x1x256_0_2 : S512x256.BroadcastsInDim S512x1x256 (![0, 2] : Fin 2 → Fin S512x1x256.rank)
  bcast_S512x1x256_S512x768x256_0_1_2 : S512x1x256.BroadcastsInDim S512x768x256 (![0, 1, 2] : Fin 3 → Fin S512x768x256.rank)
  scatter_S512x768x256_S262144x2_S262144x256_1_01_01_1_wf : ScatterDims.WF S512x768x256 S262144x2 S262144x256 [1] [0, 1] [0, 1] 1
  dot_S512x768x256_S512x256x256_S512x768x256_2_1_1_2_0_0_wf : DotDims.WF S512x768x256 S512x256x256 S512x768x256 [2] [1] [1] [2] [0] [0]
  gather_S512x768x256_S262144x2_S262144x256_1_01_n_n_01_1_11256_wf : GatherDims.WF S512x768x256 S262144x2 S262144x256 [1] [0, 1] [] [0, 1] [] 1 ![1, 1, 256]

variable [Facts₀]

def scatter_S512x768x256_S262144x2_S262144x256_1_01_01_1 : ScatterDims S512x768x256 S262144x2 S262144x256 where
  updateWindowDims := [1]
  insertedWindowDims := [0, 1]
  scatterDimsToOperandDims := [0, 1]
  indexVectorDim := 1
  wf := scatter_S512x768x256_S262144x2_S262144x256_1_01_01_1_wf
def dot_S512x768x256_S512x256x256_S512x768x256_2_1_1_2_0_0 : DotDims S512x768x256 S512x256x256 S512x768x256 where
  lhsContracting := [2]
  rhsContracting := [1]
  lhsNonContracting := [1]
  rhsNonContracting := [2]
  lhsBatch := [0]
  rhsBatch := [0]
  wf := dot_S512x768x256_S512x256x256_S512x768x256_2_1_1_2_0_0_wf
def gather_S512x768x256_S262144x2_S262144x256_1_01_n_n_01_1_11256 : GatherDims S512x768x256 S262144x2 S262144x256 where
  offsetDims := [1]
  collapsedSliceDims := [0, 1]
  operandBatchingDims := []
  startIndicesBatchingDims := []
  startIndexMap := [0, 1]
  indexVectorDim := 1
  sliceSizes := ![1, 1, 256]
  wf := gather_S512x768x256_S262144x2_S262144x256_1_01_n_n_01_1_11256_wf

class Facts : Prop extends Facts₀ where

variable [Facts]
-- ==== Proof.Affine.lean ====
/-
  The mathematics both programs compute between their shared scatter and their shared gather: for each of the 512
  networks n, each of the 768 padded rows r and each of the 256 output features o,

      y[n, r, o] = (∑ k < 256, xp[n, r, k] · w[n, k, o]) + b[n, 0, o]

  on the extended reals — one row of the padded input times that network's weight matrix, plus that network's bias row
  (the bias carried as a [512, 1, 256] array, its middle axis a unit axis). Sums and products of extended reals are
  commutative and associative, so no finiteness of the inputs is needed to state or to compare this function.
-/
import Idealize.ShloMosaic.PureOps.Ideal.Laws
import Idealize.ShloMosaic.Lib.ValueIdx

noncomputable section

namespace Cert.GroupedAffine

open Idealize.ShloMosaic Idealize.ShloMosaic.ValueIdx

/-- The padded input, the weights and the bias (as a three-axis array with a unit middle axis), as index functions. -/
abbrev XP := FVec Ideal (⟨3, ![512, 768, 256]⟩ : Shape) .f32
abbrev WT := FVec Ideal (⟨3, ![512, 256, 256]⟩ : Shape) .f32
abbrev B3 := FVec Ideal (⟨3, ![512, 1, 256]⟩ : Shape) .f32

/-- One entry of the grouped affine map: row `r` of network `n`'s padded input against column `o` of that network's
    weight matrix, plus the network's bias at `o`. -/
def affineAt (xp : XP) (w : WT) (b : B3) (n : Fin 512) (r : Fin 768) (o : Fin 256) : EReal :=
  (∑ k : Fin 256, xp (ix3 n r k) * w (ix3 n k o)) + b (ix3 n 0 o)

/-- The grouped affine map as one array over [512, 768, 256]. -/
def affine (xp : XP) (w : WT) (b : B3) : XP := fun i => affineAt xp w b (i 0) (i 1) (i 2)

theorem affine_apply (xp : XP) (w : WT) (b : B3) (n : Fin 512) (r : Fin 768) (o : Fin 256) :
    affine xp w b (ix3 n r o) = affineAt xp w b n r o := rfl

end Cert.GroupedAffine

end
-- ==== Proof.Slab.lean ====
/-
  One network's slice of the kernel body, read entry by entry on the extended reals.

  The body handles four networks per grid point. For each it loads that network's [1, 768, 256] slab of the padded
  input, its [1, 256, 256] weight matrix and its [1, 1, 256] bias row, drops the unit axes, multiplies (the
  narrowing of both factors to bf16 is the identity on the extended reals, and the product accumulates into a zero
  block), adds the bias row broadcast down the 768 rows and restores the unit axis. Entry (0, p, o) of what it
  stores is therefore

      (∑ k < 256, slab[0, p, k] · weight[0, k, o]) + bias[0, 0, o].
-/
import proofs.«420919_j41695542509718_4_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Slab

open Cert.KernelIdeal Cert.KernelIdeal.Gen Idealize.ShloMosaic Idealize.ShloMosaic.ValueIdx

/-! ## The body's matrix product read at an entry -/

theorem lhs_axis0 (i : S768x256.Idx) (q : dot_S768x256_S256x256_S768x256_1_0_0_1_n_n.contr.Idx) :
    (dot_S768x256_S256x256_S768x256_1_0_0_1_n_n.lhsIdx i q 0).val = (i 0).val := by
  unfold DotDims.lhsIdx
  rw [dif_neg (show ¬(0 : Fin S768x256.rank) ∈ dot_S768x256_S256x256_S768x256_1_0_0_1_n_n.lhsBatch by decide), dif_pos (show (0 : Fin S768x256.rank) ∈ dot_S768x256_S256x256_S768x256_1_0_0_1_n_n.lhsNonContracting by decide)]
  rfl
theorem lhs_axis1 (i : S768x256.Idx) (q : dot_S768x256_S256x256_S768x256_1_0_0_1_n_n.contr.Idx) :
    (dot_S768x256_S256x256_S768x256_1_0_0_1_n_n.lhsIdx i q 1).val = (q ⟨0, by decide⟩).val :=
  dot_S768x256_S256x256_S768x256_1_0_0_1_n_n.lhsIdx_val_of_single rfl i q
theorem rhs_axis0 (i : S768x256.Idx) (q : dot_S768x256_S256x256_S768x256_1_0_0_1_n_n.contr.Idx) :
    (dot_S768x256_S256x256_S768x256_1_0_0_1_n_n.rhsIdx i q 0).val = (q ⟨0, by decide⟩).val :=
  dot_S768x256_S256x256_S768x256_1_0_0_1_n_n.rhsIdx_val_of_single rfl i q
theorem rhs_axis1 (i : S768x256.Idx) (q : dot_S768x256_S256x256_S768x256_1_0_0_1_n_n.contr.Idx) :
    (dot_S768x256_S256x256_S768x256_1_0_0_1_n_n.rhsIdx i q 1).val = (i 1).val := by
  unfold DotDims.rhsIdx
  rw [dif_neg (show ¬(1 : Fin S256x256.rank) ∈ dot_S768x256_S256x256_S768x256_1_0_0_1_n_n.rhsBatch by decide), dif_pos (show (1 : Fin S256x256.rank) ∈ dot_S768x256_S256x256_S768x256_1_0_0_1_n_n.rhsNonContracting by decide)]
  rfl

/-- The [768, 256] × [256, 256] product into a zero block, at entry (p, o): row p of the left factor against column o
    of the right one. -/
theorem product_at (l : FVec Ideal S768x256 .bf16) (r : FVec Ideal S256x256 .bf16) (p : Fin 768) (o : Fin 256) :
    matmul dot_S768x256_S256x256_S768x256_1_0_0_1_n_n none l r (constant (F := Ideal) S768x256 .f32 0x00000000#32) (ix2 p o)
      = ∑ k : Fin 256, l (ix2 p k) * r (ix2 k o) := by
  refine (Ideal.matmul_constant_zero_apply dot_S768x256_S256x256_S768x256_1_0_0_1_n_n none l r (ix2 p o)).trans ?_
  rw [← Equiv.sum_comp (ValueIdx.contrEquiv1 dot_S768x256_S256x256_S768x256_1_0_0_1_n_n 256 rfl rfl).symm]
  refine Finset.sum_congr rfl fun k _ => ?_
  have hk := ValueIdx.contrEquiv1_symm_val dot_S768x256_S256x256_S768x256_1_0_0_1_n_n 256 rfl rfl k
  have el : dot_S768x256_S256x256_S768x256_1_0_0_1_n_n.lhsIdx (ix2 p o) ((ValueIdx.contrEquiv1 dot_S768x256_S256x256_S768x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S768x256_S256x256_S768x256_1_0_0_1_n_n.rhsIdx (ix2 p o) ((ValueIdx.contrEquiv1 dot_S768x256_S256x256_S768x256_1_0_0_1_n_n 256 rfl rfl).symm k) = ix2 k o := funext fun a => Fin.ext (by
    match a with
    | ⟨0, _⟩ => exact (rhs_axis0 _ _).trans hk
    | ⟨1, _⟩ => exact rhs_axis1 _ _)
  rw [el, er]

/-! ## Dropping and restoring the unit axis, read at an entry -/

theorem cons_zero_ix2 {a b : Nat} (p : Fin a) (q : Fin b) :
    (Fin.cons (⟨0, Nat.one_pos⟩ : Fin 1) (ix2 p q) : (⟨3, Matrix.vecCons 1 ![a, b]⟩ : Shape).Idx) = ix3 (0 : Fin 1) p q := by
  funext d
  match d with
  | ⟨0, _⟩ => rfl
  | ⟨1, _⟩ => rfl
  | ⟨2, _⟩ => rfl

theorem tail_ix3 {a b : Nat} (p : Fin a) (q : Fin b) :
    (fun d : Fin 2 => (ix3 (0 : Fin 1) p q : (⟨3, Matrix.vecCons 1 ![a, b]⟩ : Shape).Idx) d.succ) = ix2 p q := by
  funext d
  match d with
  | ⟨0, _⟩ => rfl
  | ⟨1, _⟩ => rfl

/-- A [1, a, b] block with its unit axis dropped, at (p, q), is the block at (0, p, q). -/
theorem dropUnit_at {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 0 p q) :=
  (shapeCast_dropUnit_apply ![a, b] v h (ix2 p q)).trans (congrArg v (cons_zero_ix2 p q))

/-- An [a, b] block given a leading unit axis, at (0, p, q), is the block at (p, q). -/
theorem addUnit_at {α : Type} {a b : Nat} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 0 p q) = v (ix2 p q) :=
  (shapeCast_addUnit_apply ![a, b] v h (ix3 0 p q)).trans (congrArg v (tail_ix3 p q))

/-- A [1, 256] row broadcast down 768 rows, at (p, o), is the row at (0, o). -/
theorem bcastRow_at {α : Type} (v : S1x256.Idx → α) (h : S1x256.Broadcasts S768x256) (p : Fin 768) (o : Fin 256) :
    broadcastTo S768x256 v h (ix2 p o) = v (ix2 0 o) :=
  broadcastTo_apply v h (ix2 p o) (ix2 0 o) (fun a => by
    match a with
    | ⟨0, _⟩ => show (0 : Nat) = if (1 : Nat) = 1 then 0 else _; rw [if_pos rfl]
    | ⟨1, _⟩ => show o.val = if (256 : Nat) = 1 then 0 else o.val; rw [if_neg (by decide)])

/-! ## One network's slice of the body -/

/-- Entry (0, p, o) of what the body stores for one network: its slab's row p against its weight's column o, plus
    its bias at o. -/
theorem slab_at (v0 : Vec Ideal S1x768x256 .f32) (v3 : Vec Ideal S1x256x256 .f32) (v6 : Vec Ideal S1x1x256 .f32)
    (p : Fin 768) (o : Fin 256) :
    k0_pay3 (F := Ideal) v0 v3 v6 (ix3 0 p o)
      = (∑ k : Fin 256, v0 (ix3 0 p k) * v3 (ix3 0 k o)) + v6 (ix3 0 0 o) := by
  unfold k0_pay3
  refine (addUnit_at _ _ p o).trans ?_
  refine (addf_apply _ _ (ix2 p o)).trans ?_
  refine congrArg₂ (· + ·) ?_ ?_
  · refine (product_at _ _ p o).trans ?_
    refine Finset.sum_congr rfl fun k _ => ?_
    refine congrArg₂ (· * ·) ?_ ?_
    · exact dropUnit_at v0 shapeCasts_S1x768x256_S768x256 p k
    · exact dropUnit_at v3 shapeCasts_S1x256x256_S256x256 k o
  · refine (bcastRow_at _ _ p o).trans ?_
    exact dropUnit_at v6 _ 0 o

/-- The four stores of the body carry one and the same function of their three loads. -/
theorem pay1_eq : @k0_pay1 Ideal _ = k0_pay3 := rfl
theorem pay2_eq : @k0_pay2 Ideal _ = k0_pay3 := rfl
theorem pay4_eq : @k0_pay4 Ideal _ = k0_pay3 := rfl

end Cert.KernelIdeal.Slab

end
-- ==== Proof.Block.lean ====
/-
  What the kernel body leaves in its [4, 768, 256] output block, entry by entry.

  The body serves four networks per grid point; network b of the point (b < 4) reads slab b of the input block, matrix b
  of the weight block and row b of the bias block, and stores slab b of the output block. The four stores tile the
  output block, so its entry (b, p, o) is

      (∑ k < 256, x[b, p, k] · w[b, k, o]) + bias[b, 0, o]

  of the three input blocks — the same expression for every b.
-/
import proofs.«420919_j41695542509718_4_alg».proof.Proof.Gen.KernelIdeal.Frame
import proofs.«420919_j41695542509718_4_alg».proof.Proof.Slab

noncomputable section

namespace Cert.KernelIdeal.Block

open Cert.KernelIdeal Cert.KernelIdeal.Gen Cert.KernelIdeal.Slab Idealize.ShloMosaic Idealize.ShloMosaic.ValueIdx

/-- The output block as one function of the three input blocks. -/
def block (x0 : Vec Ideal S4x768x256 .f32) (x1 : Vec Ideal S4x256x256 .f32) (x2 : Vec Ideal S4x1x256 .f32) :
    Vec Ideal S4x768x256 .f32 :=
  fun y => (∑ k : Fin 256, x0 (ix3 (y 0) (y 1) k) * x1 (ix3 (y 0) k (y 2))) + x2 (ix3 (y 0) 0 (y 2))

theorem block_apply (x0 : Vec Ideal S4x768x256 .f32) (x1 : Vec Ideal S4x256x256 .f32) (x2 : Vec Ideal S4x1x256 .f32)
    (b : Fin 4) (p : Fin 768) (o : Fin 256) :
    block x0 x1 x2 (ix3 b p o) = (∑ k : Fin 256, x0 (ix3 b p k) * x1 (ix3 b k o)) + x2 (ix3 b 0 o) := rfl

/-- One network's store agrees with `block` on its slab: if the three loads are slab `b` of the input blocks, the stored
    value at a slab index is `block` at the block index with the same row and column and first coordinate `b`. -/
theorem slab_agrees (x0 : Vec Ideal S4x768x256 .f32) (x1 : Vec Ideal S4x256x256 .f32) (x2 : Vec Ideal S4x1x256 .f32) (b : Fin 4)
    (v0 : Vec Ideal S1x768x256 .f32) (v3 : Vec Ideal S1x256x256 .f32) (v6 : Vec Ideal S1x1x256 .f32)
    (h0 : ∀ (p : Fin 768) (k : Fin 256), v0 (ix3 0 p k) = x0 (ix3 b p k))
    (h3 : ∀ (k : Fin 256) (o : Fin 256), v3 (ix3 0 k o) = x1 (ix3 b k o))
    (h6 : ∀ o : Fin 256, v6 (ix3 0 0 o) = x2 (ix3 b 0 o))
    (x : S1x768x256.Idx) (y : S4x768x256.Idx) (hy0 : (y 0).val = b.val) (hy1 : (y 1).val = (x 1).val) (hy2 : (y 2).val = (x 2).val) :
    k0_pay3 (F := Ideal) v0 v3 v6 x = block x0 x1 x2 y := by
  obtain ⟨p, o, rfl⟩ : ∃ (p : Fin 768) (o : Fin 256), x = ix3 0 p o :=
    ⟨x 1, x 2, funext fun a => by
      match a with
      | ⟨0, _⟩ => exact Fin.ext (by have h : (x 0).val < 1 := (x 0).isLt; show (x 0).val = 0; omega)
      | ⟨1, _⟩ => rfl
      | ⟨2, _⟩ => rfl⟩
  obtain rfl : y = ix3 b p o := funext fun a => by
    match a with
    | ⟨0, _⟩ => exact Fin.ext hy0
    | ⟨1, _⟩ => exact Fin.ext hy1
    | ⟨2, _⟩ => exact Fin.ext hy2
  rw [slab_at, block_apply]
  refine congrArg₂ (· + ·) (Finset.sum_congr rfl fun k _ => ?_) (h6 o)
  rw [h0, h3]

/-- The body's four stores leave `block` of the input blocks in the output block. -/
theorem out_eq (x0 : Vec Ideal S4x768x256 .f32) (x1 : Vec Ideal S4x256x256 .f32) (x2 : Vec Ideal S4x1x256 .f32) :
    out0_3 (F := Ideal) x0 x1 x2 = block x0 x1 x2 := by
  funext y
  unfold out0_3
  rw [pay1_eq, pay2_eq, pay4_eq]
  refine View.canon_apply_of_pieces (block x0 x1 x2) _ ?_ y (cover0_3 _ _ _ _ y)
  intro pc hpc x
  simp only [List.mem_cons, List.mem_nil_iff, or_false] at hpc
  rcases hpc with rfl | rfl | rfl | rfl
  · refine slab_agrees x0 x1 x2 3 _ _ _ (fun p k => ?_) (fun k o => ?_) (fun o => ?_) x _ ?_ ?_ ?_
    · show x0 (r0_9.emb (ix3 0 p k)) = x0 (ix3 3 p k)
      refine congrArg x0 (funext fun a => Fin.ext ?_)
      match a with
      | ⟨0, _⟩ => rfl
      | ⟨1, _⟩ => show 0 + 1 * p.val = p.val; omega
      | ⟨2, _⟩ => show 0 + 1 * k.val = k.val; omega
    · show x1 (r0_10.emb (ix3 0 k o)) = x1 (ix3 3 k o)
      refine congrArg x1 (funext fun a => Fin.ext ?_)
      match a with
      | ⟨0, _⟩ => rfl
      | ⟨1, _⟩ => show 0 + 1 * k.val = k.val; omega
      | ⟨2, _⟩ => show 0 + 1 * o.val = o.val; omega
    · show x2 (r0_11.emb (ix3 0 0 o)) = x2 (ix3 3 0 o)
      refine congrArg x2 (funext fun a => Fin.ext ?_)
      match a with
      | ⟨0, _⟩ => rfl
      | ⟨1, _⟩ => rfl
      | ⟨2, _⟩ => show 0 + 1 * o.val = o.val; omega
    · show 3 + 1 * (x 0).val = 3; have h : (x 0).val < 1 := (x 0).isLt; omega
    · show 0 + 1 * (x 1).val = (x 1).val; omega
    · show 0 + 1 * (x 2).val = (x 2).val; omega
  · refine slab_agrees x0 x1 x2 2 _ _ _ (fun p k => ?_) (fun k o => ?_) (fun o => ?_) x _ ?_ ?_ ?_
    · show x0 (r0_6.emb (ix3 0 p k)) = x0 (ix3 2 p k)
      refine congrArg x0 (funext fun a => Fin.ext ?_)
      match a with
      | ⟨0, _⟩ => rfl
      | ⟨1, _⟩ => show 0 + 1 * p.val = p.val; omega
      | ⟨2, _⟩ => show 0 + 1 * k.val = k.val; omega
    · show x1 (r0_7.emb (ix3 0 k o)) = x1 (ix3 2 k o)
      refine congrArg x1 (funext fun a => Fin.ext ?_)
      match a with
      | ⟨0, _⟩ => rfl
      | ⟨1, _⟩ => show 0 + 1 * k.val = k.val; omega
      | ⟨2, _⟩ => show 0 + 1 * o.val = o.val; omega
    · show x2 (r0_8.emb (ix3 0 0 o)) = x2 (ix3 2 0 o)
      refine congrArg x2 (funext fun a => Fin.ext ?_)
      match a with
      | ⟨0, _⟩ => rfl
      | ⟨1, _⟩ => rfl
      | ⟨2, _⟩ => show 0 + 1 * o.val = o.val; omega
    · show 2 + 1 * (x 0).val = 2; have h : (x 0).val < 1 := (x 0).isLt; omega
    · show 0 + 1 * (x 1).val = (x 1).val; omega
    · show 0 + 1 * (x 2).val = (x 2).val; omega
  · refine slab_agrees x0 x1 x2 1 _ _ _ (fun p k => ?_) (fun k o => ?_) (fun o => ?_) x _ ?_ ?_ ?_
    · show x0 (r0_3.emb (ix3 0 p k)) = x0 (ix3 1 p k)
      refine congrArg x0 (funext fun a => Fin.ext ?_)
      match a with
      | ⟨0, _⟩ => rfl
      | ⟨1, _⟩ => show 0 + 1 * p.val = p.val; omega
      | ⟨2, _⟩ => show 0 + 1 * k.val = k.val; omega
    · show x1 (r0_4.emb (ix3 0 k o)) = x1 (ix3 1 k o)
      refine congrArg x1 (funext fun a => Fin.ext ?_)
      match a with
      | ⟨0, _⟩ => rfl
      | ⟨1, _⟩ => show 0 + 1 * k.val = k.val; omega
      | ⟨2, _⟩ => show 0 + 1 * o.val = o.val; omega
    · show x2 (r0_5.emb (ix3 0 0 o)) = x2 (ix3 1 0 o)
      refine congrArg x2 (funext fun a => Fin.ext ?_)
      match a with
      | ⟨0, _⟩ => rfl
      | ⟨1, _⟩ => rfl
      | ⟨2, _⟩ => show 0 + 1 * o.val = o.val; omega
    · show 1 + 1 * (x 0).val = 1; have h : (x 0).val < 1 := (x 0).isLt; omega
    · show 0 + 1 * (x 1).val = (x 1).val; omega
    · show 0 + 1 * (x 2).val = (x 2).val; omega
  · refine slab_agrees x0 x1 x2 0 _ _ _ (fun p k => ?_) (fun k o => ?_) (fun o => ?_) x _ ?_ ?_ ?_
    · show x0 (r0_0.emb (ix3 0 p k)) = x0 (ix3 0 p k)
      refine congrArg x0 (funext fun a => Fin.ext ?_)
      match a with
      | ⟨0, _⟩ => rfl
      | ⟨1, _⟩ => show 0 + 1 * p.val = p.val; omega
      | ⟨2, _⟩ => show 0 + 1 * k.val = k.val; omega
    · show x1 (r0_1.emb (ix3 0 k o)) = x1 (ix3 0 k o)
      refine congrArg x1 (funext fun a => Fin.ext ?_)
      match a with
      | ⟨0, _⟩ => rfl
      | ⟨1, _⟩ => show 0 + 1 * k.val = k.val; omega
      | ⟨2, _⟩ => show 0 + 1 * o.val = o.val; omega
    · show x2 (r0_2.emb (ix3 0 0 o)) = x2 (ix3 0 0 o)
      refine congrArg x2 (funext fun a => Fin.ext ?_)
      match a with
      | ⟨0, _⟩ => rfl
      | ⟨1, _⟩ => rfl
      | ⟨2, _⟩ => show 0 + 1 * o.val = o.val; omega
    · show 0 + 1 * (x 0).val = 0; have h : (x 0).val < 1 := (x 0).isLt; omega
    · show 0 + 1 * (x 1).val = (x 1).val; omega
    · show 0 + 1 * (x 2).val = (x 2).val; omega

end Cert.KernelIdeal.Block

end
-- ==== Proof.Padded.lean ====
/-
  The padded output array after the kernel's 128 grid points, as one function of the arrays the kernel is launched on.

  Grid point t serves networks 4t … 4t + 3: each of its four windows is the [4, ·, ·] block of its array starting at
  network 4t. So what point t writes back — `Block.block` of its three input blocks — is block t of the grouped affine
  map of the three whole arrays, and since the 128 output blocks tile the [512, 768, 256] array, the array ends holding
  that map everywhere.
-/
import proofs.«420919_j41695542509718_4_alg».proof.Proof.Gen.KernelIdeal.Frame
import proofs.«420919_j41695542509718_4_alg».proof.Proof.Affine
import proofs.«420919_j41695542509718_4_alg».proof.Proof.Block
import Idealize.ShloMosaic.Lib.Pipeline.Value

noncomputable section

namespace Cert.KernelIdeal.Padded

open Cert.KernelIdeal Cert.KernelIdeal.Gen Cert.KernelIdeal.Block Idealize.ShloMosaic Idealize.ShloMosaic.TcCoe
open Idealize.ShloMosaic.ValueIdx Idealize.SL.Sem Cert.GroupedAffine
open Idealize.ShloMosaic.Pipeline (Dat)

variable (m : (ℓ : Loc nD τ sig) → Buf (Elt Ideal) ℓ) (ρ : Dev nD → PrngReg)

/-- The three arrays the kernel's input windows read, as the region finds them: the scattered (padded) input, the
    weights, and the bias with its unit middle axis. -/
abbrev xpArr (c : Dev nD) : Vec Ideal S512x768x256 .f32 := V m c main_v14
abbrev wArr (c : Dev nD) : Vec Ideal S512x256x256 .f32 := V m c main_arg1
abbrev bArr (c : Dev nD) : Vec Ideal S512x1x256 .f32 := V m c main_v15

/-- Their blocks at grid point `t`. -/
abbrev xblk (c : Dev nD) (t : Fin cfg0.N) : Vec Ideal S4x768x256 .f32 := iblk m c 0 t
abbrev wblk (c : Dev nD) (t : Fin cfg0.N) : Vec Ideal S4x256x256 .f32 := iblk m c 1 t
abbrev bblk (c : Dev nD) (t : Fin cfg0.N) : Vec Ideal S4x1x256 .f32 := iblk m c 2 t

/-- The printed index maps, decided over the grid: every window's block index at point `t` is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Entry (q, p, k) of the input block at point `t` is entry (4t + q, p, k) of the padded input. -/
theorem xblk_at (c : Dev nD) (t : Fin cfg0.N) (q : Fin 4) (p : Fin 768) (k : Fin 256) (i : S512x768x256.Idx)
    (h0 : (i 0).val = t.val * 4 + q.val) (h1 : (i 1).val = p.val) (h2 : (i 2).val = k.val) :
    xblk m c t (ix3 q p k) = xpArr m c i := by
  obtain ⟨e0, e1, e2, -⟩ := idx_facts t
  have key : ∀ A : Vec Ideal S512x768x256 .f32, ((cfg0.win 0).blk t).view.read (Elt Ideal) A (ix3 q p k) = A i := by
    intro A
    rw [View.read_apply]
    refine congrArg A (funext fun a => Fin.ext ?_)
    match a with
    | ⟨0, _⟩ => show win0_0.index t 0 * 4 + 1 * q.val = (i 0).val; rw [e0, h0]; omega
    | ⟨1, _⟩ => show win0_0.index t 1 * 768 + 1 * p.val = (i 1).val; rw [e1, h1]; omega
    | ⟨2, _⟩ => show win0_0.index t 2 * 256 + 1 * k.val = (i 2).val; rw [e2, h2]; omega
  exact key (xpArr m c)

/-- Entry (q, k, o) of the weight block at point `t` is entry (4t + q, k, o) of the weights. -/
theorem wblk_at (c : Dev nD) (t : Fin cfg0.N) (q : Fin 4) (k : Fin 256) (o : Fin 256) (i : S512x256x256.Idx)
    (h0 : (i 0).val = t.val * 4 + q.val) (h1 : (i 1).val = k.val) (h2 : (i 2).val = o.val) :
    wblk m c t (ix3 q k o) = wArr m c i := by
  obtain ⟨-, -, -, e0, e1, e2, -⟩ := idx_facts t
  have key : ∀ A : Vec Ideal S512x256x256 .f32, ((cfg0.win 1).blk t).view.read (Elt Ideal) A (ix3 q k o) = A i := by
    intro A
    rw [View.read_apply]
    refine congrArg A (funext fun a => Fin.ext ?_)
    match a with
    | ⟨0, _⟩ => show win0_1.index t 0 * 4 + 1 * q.val = (i 0).val; rw [e0, h0]; omega
    | ⟨1, _⟩ => show win0_1.index t 1 * 256 + 1 * k.val = (i 1).val; rw [e1, h1]; omega
    | ⟨2, _⟩ => show win0_1.index t 2 * 256 + 1 * o.val = (i 2).val; rw [e2, h2]; omega
  exact key (wArr m c)

/-- Entry (q, 0, o) of the bias block at point `t` is entry (4t + q, 0, o) of the bias. -/
theorem bblk_at (c : Dev nD) (t : Fin cfg0.N) (q : Fin 4) (o : Fin 256) (i : S512x1x256.Idx)
    (h0 : (i 0).val = t.val * 4 + q.val) (h2 : (i 2).val = o.val) :
    bblk m c t (ix3 q 0 o) = bArr m c i := by
  obtain ⟨-, -, -, -, -, -, e0, e1, e2, -⟩ := idx_facts t
  have key : ∀ A : Vec Ideal S512x1x256 .f32, ((cfg0.win 2).blk t).view.read (Elt Ideal) A (ix3 q 0 o) = A i := by
    intro A
    rw [View.read_apply]
    refine congrArg A (funext fun a => Fin.ext ?_)
    match a with
    | ⟨0, _⟩ => show win0_2.index t 0 * 4 + 1 * q.val = (i 0).val; rw [e0, h0]; omega
    | ⟨1, _⟩ => show win0_2.index t 1 * 1 + 1 * 0 = (i 1).val; rw [e1]; have h : (i 1).val < 1 := (i 1).isLt; omega
    | ⟨2, _⟩ => show win0_2.index t 2 * 256 + 1 * o.val = (i 2).val; rw [e2, h2]; omega
  exact key (bArr m c)

/-- What the body computes from point `t`'s blocks, at block entry `j`, is the grouped affine map of the whole arrays at the
    array entry `i` with first coordinate 4t + j₀ and the same row and column. -/
theorem point_value (c : Dev nD) (t : Fin cfg0.N) (j : S4x768x256.Idx) (i : S512x768x256.Idx)
    (h0 : (i 0).val = t.val * 4 + (j 0).val) (h1 : (i 1).val = (j 1).val) (h2 : (i 2).val = (j 2).val) :
    block (xblk m c t) (wblk m c t) (bblk m c t) j = affine (xpArr m c) (wArr m c) (bArr m c) i := by
  obtain ⟨q, p, o, rfl⟩ : ∃ (q : Fin 4) (p : Fin 768) (o : Fin 256), j = ix3 q p o := ⟨j 0, j 1, j 2, eq_ix3 j⟩
  rw [block_apply]
  show _ = affineAt _ _ _ (i 0) (i 1) (i 2)
  unfold affineAt
  refine congrArg₂ (· + ·) (Finset.sum_congr rfl fun k _ => congrArg₂ (· * ·) ?_ ?_) ?_
  · exact xblk_at m c t q p k (ix3 (i 0) (i 1) k) h0 h1 rfl
  · exact wblk_at m c t q k o (ix3 (i 0) k (i 2)) h0 rfl h2
  · exact bblk_at m c t q o (ix3 (i 0) 0 (i 2)) h0 h2

/-- A block of the output window against an array, entry by entry: if a [4, 768, 256] block `X` agrees with an array `G` at
    the entries of networks 4t … 4t + 3, then what point `t` writes back of `X` is block `t` of `G`. -/
theorem cut_read (t : Fin cfg0.N) (X : Vec Ideal S4x768x256 .f32) (G : Vec Ideal S512x768x256 .f32)
    (h : ∀ (j : S4x768x256.Idx) (i : S512x768x256.Idx), (i 0).val = t.val * 4 + (j 0).val → (i 1).val = (j 1).val →
      (i 2).val = (j 2).val → X j = G i) :
    (cfg0.win 3).cut (grid0.coords t) X = ((cfg0.win 3).blk t).view.read (Elt Ideal) G := by
  obtain ⟨-, -, -, -, -, -, -, -, -, e0, e1, e2⟩ := idx_facts t
  funext j
  rw [View.read_apply]
  refine h _ _ ?_ ?_ ?_
  · show win0_3.index t 0 * 4 + 1 * (j 0).val = t.val * 4 + (j 0).val; rw [e0]; omega
  · show win0_3.index t 1 * 768 + 1 * (j 1).val = (j 1).val; rw [e1]; omega
  · show win0_3.index t 2 * 256 + 1 * (j 2).val = (j 2).val; rw [e2]; omega

/-- What point `t` writes back is block `t` of the grouped affine map of the arrays as the region finds them. -/
theorem flushed_eq (c : Dev nD) (t : Fin cfg0.N) :
    (dats m 0 c).flushed 3 t
      = ((cfg0.win 3).blk t).view.read (Elt Ideal) (affine (xpArr m c) (wArr m c) (bArr m c)) := by
  show (cfg0.win 3).cut (grid0.coords t) ((dats m 0 c).after 3 t) = _
  rw [after0_3]
  exact cut_read t (out0_3 (xblk m c t) (wblk m c t) (bblk m c t)) (affine (xpArr m c) (wArr m c) (bArr m c))
    (fun j i h0 h1 h2 => (congrFun (out_eq (xblk m c t) (wblk m c t) (bblk m c t)) j).trans (point_value m c t j i h0 h1 h2))

/-- An index of the output array is in point `t`'s block iff each coordinate is in the block's range on its axis. -/
theorem mem_blk (t : Fin cfg0.N) (i : S512x768x256.Idx) :
    i ∈ ((cfg0.win 3).blk t).view.set ↔ ∀ a : Fin 3, win0_3.index t a * S4x768x256.size a ≤ (i a).val ∧ (i a).val < win0_3.index t a * S4x768x256.size a + S4x768x256.size a := by
  show i ∈ ((View.whole main_v16).slice (win0_3.rect t)).set ↔ _
  rw [View.set_slice_whole, Rect.mem_set_unit]
  exact Iff.rfl

/-- Every entry of the output array lies in some point's block: network n belongs to point n / 4. -/
theorem covered (i : S512x768x256.Idx) :
    ∃ t : Fin cfg0.N, (cfg0.win 3).flush t = true ∧ i ∈ ((cfg0.win 3).blk t).view.set := by
  have hi0 : (i 0).val < 512 := (i 0).isLt
  have hi1 : (i 1).val < 768 := (i 1).isLt
  have hi2 : (i 2).val < 256 := (i 2).isLt
  have hN : cfg0.N = 128 := N_0
  let t : Fin cfg0.N := ⟨(i 0).val / 4, by rw [hN]; omega⟩
  obtain ⟨-, -, -, -, -, -, -, -, -, e0, e1, e2⟩ := idx_facts t
  have ht : t.val = (i 0).val / 4 := rfl
  refine ⟨t, flush0_3 t, ?_⟩
  rw [mem_blk]
  intro a
  match a with
  | ⟨0, _⟩ => show win0_3.index t 0 * 4 ≤ (i 0).val ∧ (i 0).val < win0_3.index t 0 * 4 + 4; rw [e0, ht]; omega
  | ⟨1, _⟩ => show win0_3.index t 1 * 768 ≤ (i 1).val ∧ (i 1).val < win0_3.index t 1 * 768 + 768; rw [e1]; omega
  | ⟨2, _⟩ => show win0_3.index t 2 * 256 ≤ (i 2).val ∧ (i 2).val < win0_3.index t 2 * 256 + 256; rw [e2]; omega

/-- The output array after the run is the grouped affine map of the arrays the region finds. -/
theorem final (c : Dev nD) :
    (dats m 0 c).arrAt 3 cfg0.N = affine (xpArr m c) (wArr m c) (bArr m c) :=
  (dats m 0 c).arrAt_eq_of_cover 3 (affine (xpArr m c) (wArr m c) (bArr m c)) (fun t _ => flushed_eq m c t) covered

end Cert.KernelIdeal.Padded

end
-- ==== Proof.Glue.lean ====
/-
  The host operations around the kernel, named once.

  Both programs turn the two id vectors into one [262144, 2] array of (network, slot) pairs (a negative id wrapped
  around by the axis length, as jnp indexing does), scatter the input rows into a zero [512, 768, 256] array at those
  pairs, and at the end gather the rows back from the padded result at the same pairs. The kernel's program also gives the
  bias a unit middle axis before the call. These are stated here as functions of the argument arrays; nothing below
  opens the scatter or the gather.
-/
import proofs.«420919_j41695542509718_4_alg».proof.Proof.Gen.KernelIdeal.Frame
import proofs.«420919_j41695542509718_4_alg».proof.Proof.Padded
import Idealize.ShloMosaic.Lib.StableHlo.Run

noncomputable section

namespace Cert.KernelIdeal.Glue

open Cert.KernelIdeal Cert.KernelIdeal.Gen Idealize.ShloMosaic Idealize.ShloMosaic.TcCoe
open Idealize.SL.Sem Cert.GroupedAffine Idealize.ShloMosaic.StableHlo

variable (m : (ℓ : Loc nD τ sig) → Buf (Elt Ideal) ℓ) (ρ : Dev nD → PrngReg)

/-- The (network, slot) pairs: each id vector with negative entries wrapped by its axis length (512 networks, 768 slots),
    laid side by side. -/
def pairs (net slot : (⟨S262144, .i32⟩ : BufTy).Contents (Elt Ideal)) : (⟨S262144x2, .i32⟩ : BufTy).Contents (Elt Ideal) :=
  concatenate S262144x2 1
    [⟨S262144x1, broadcastInDim S262144x1 ![0] bcast_S262144_S262144x1_0
        (select (cmpi .slt net (broadcastInDim S262144 ![] bcast_S_S262144 (constantI S_ 32 0#32)))
          (addi net (broadcastInDim S262144 ![] bcast_S_S262144 (constantI S_ 32 512#32))) net)⟩,
     ⟨S262144x1, broadcastInDim S262144x1 ![0] bcast_S262144_S262144x1_0
        (select (cmpi .slt slot (broadcastInDim S262144 ![] bcast_S_S262144 (constantI S_ 32 0#32)))
          (addi slot (broadcastInDim S262144 ![] bcast_S_S262144 (constantI S_ 32 768#32))) slot)⟩]
    concatenates_S262144x1_S262144x1_S262144x2_d1

/-- The input rows scattered into a zero [512, 768, 256] array at their (network, slot) pairs. -/
def padded (x : (⟨S262144x256, .f32⟩ : BufTy).Contents (Elt Ideal)) (net slot : (⟨S262144, .i32⟩ : BufTy).Contents (Elt Ideal)) :
    (⟨S512x768x256, .f32⟩ : BufTy).Contents (Elt Ideal) :=
  Host.scatter scatter_S512x768x256_S262144x2_S262144x256_1_01_01_1 (fun _ b => b)
    (broadcastInDim S512x768x256 ![] bcast_S_S512x768x256 (constant (F := Ideal) S_ .f32 0x00000000#32)) (pairs net slot) x

/-- The bias with a unit middle axis. -/
def bias3 (b : (⟨S512x256, .f32⟩ : BufTy).Contents (Elt Ideal)) : (⟨S512x1x256, .f32⟩ : BufTy).Contents (Elt Ideal) :=
  broadcastInDim S512x1x256 ![0, 2] bcast_S512x256_S512x1x256_0_2 b

/-- The rows gathered back from a padded array at the (network, slot) pairs. -/
def rows (y : (⟨S512x768x256, .f32⟩ : BufTy).Contents (Elt Ideal)) (net slot : (⟨S262144, .i32⟩ : BufTy).Contents (Elt Ideal)) :
    (⟨S262144x256, .f32⟩ : BufTy).Contents (Elt Ideal) :=
  Host.gather gather_S512x768x256_S262144x2_S262144x256_1_01_n_n_01_1_11256 y (pairs net slot)

set_option maxRecDepth 8192 in
set_option maxHeartbeats 2000000 in
/-- The kernel's first window reads the scattered input. -/
theorem xpArr_eq (c : Dev nD) :
    Padded.xpArr m c = padded (m ((c : Thread nD τ).loc main_arg0)) (m ((c : Thread nD τ).loc main_arg3)) (m ((c : Thread nD τ).loc main_arg4)) := by
  show StableHlo.after hostOps0 (fun b => m (c, b)) (Proc.devRef .tc main_v14) = _
  after_results_simp <;> rfl

/-- Its third window reads the bias with its unit middle axis. -/
theorem bArr_eq (c : Dev nD) : Padded.bArr m c = bias3 (m ((c : Thread nD τ).loc main_arg2)) := by
  show StableHlo.after hostOps0 (fun b => m (c, b)) (Proc.devRef .tc main_v15) = _
  after_results_simp <;> rfl

theorem rows_congr {y y' : (⟨S512x768x256, .f32⟩ : BufTy).Contents (Elt Ideal)} {n n' s s' : (⟨S262144, .i32⟩ : BufTy).Contents (Elt Ideal)}
    (hy : y = y') (hn : n = n') (hs : s = s') : rows y n s = rows y' n' s' := by
  subst hy hn hs; rfl

set_option maxRecDepth 8192 in
set_option maxHeartbeats 2000000 in
/-- The host operations after the call, from any contents of the buffers they read: the rows gathered from the
    call's output array at the pairs made of the two id vectors. -/
theorem tail_of (G : Valuation τ sig (Elt Ideal)) :
    StableHlo.after (hostOps1 (F := Ideal)) G (Proc.devRef .tc main_v30)
      = rows (G (Proc.devRef .tc main_v16)) (G (Proc.devRef .tc main_arg3)) (G (Proc.devRef .tc main_arg4)) := by
  after_results_simp <;> rfl

/-- The program's result: the rows gathered from the kernel's output array. -/
theorem result_eq (c : Dev nD) :
    Pipeline.afterTail₀ cfgs (dats m) 0 (V0 m) [hostOps1] c main_v30
      = rows ((dats m 0 c).arrAt 3 cfg0.N) (m ((c : Thread nD τ).loc main_arg3)) (m ((c : Thread nD τ).loc main_arg4)) := by
  unfold Pipeline.afterTail₀
  show StableHlo.after hostOps1 _ (Proc.devRef .tc main_v30) = _
  refine (tail_of _).trans ?_
  exact rows_congr
    (Pipeline.withArrays_arr spec0 launch0.win.arr_inj c _ _ 3)
    ((Pipeline.withArrays_of_ne _ c (V0 m c) _ main_arg3 (by exact (by decide : ∀ w, Pipeline.arrRef spec0 w ≠ main_arg3))).trans (V_main_arg3 m c))
    ((Pipeline.withArrays_of_ne _ c (V0 m c) _ main_arg4 (by exact (by decide : ∀ w, Pipeline.arrRef spec0 w ≠ main_arg4))).trans (V_main_arg4 m c))

/-- The weights reach the kernel as launched. -/
theorem wArr_eq (c : Dev nD) : Padded.wArr m c = m ((c : Thread nD τ).loc main_arg1) := V_main_arg1 m c

/-- The kernel program's run, read: every weakly fair execution terminates with the result at the rows gathered from the
    grouped affine map of the scattered input, the weights and the bias, and with the five arguments unchanged. -/
theorem run : θ_run defs (onTc (τ := τ) (main (F := Ideal))) ⟨m, fun _ => 0, ρ⟩ fun r => ∀ c : Dev nD,
      r.2.mem ((c.tc : Thread nD τ).loc main_v30)
        = rows (affine (padded (m ((c : Thread nD τ).loc main_arg0)) (m ((c : Thread nD τ).loc main_arg3)) (m ((c : Thread nD τ).loc main_arg4)))
            (m ((c : Thread nD τ).loc main_arg1)) (bias3 (m ((c : Thread nD τ).loc main_arg2))))
          (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v30 (Pipeline.mem_restRefs_of main_v30 (by decide) (by decide))).trans
        ((result_eq m c).trans (by rw [Padded.final m c, xpArr_eq m c, bArr_eq m c, wArr_eq m c])),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Glue

end
-- ==== Proof.RefAffine.lean ====
/-
  The reference's middle stage is the grouped affine map.

  Between its scatter and its gather the reference contracts the padded input with the weights over the feature axis,
  network by network (one batched product), and adds the bias broadcast over the 768 padded rows. Read entry by
  entry on the extended reals that is `GroupedAffine.affine` of the padded input, the weights and the bias carried with a
  unit middle axis.
-/
import proofs.«420919_j41695542509718_4_alg».proof.Proof.Gen.ReferenceIdeal.Read
import proofs.«420919_j41695542509718_4_alg».proof.Proof.Affine

noncomputable section

namespace Cert.ReferenceIdeal.Mid

open Cert.ReferenceIdeal Cert.ReferenceIdeal.Read Idealize.ShloMosaic Idealize.ShloMosaic.ValueIdx Cert.GroupedAffine

/-- The batched product plus the broadcast bias, as one array, is the grouped affine map of the scattered input. -/
theorem affine_eq (x0 : (⟨S262144x256, .f32⟩ : BufTy).Contents (Elt Ideal)) (x1 : (⟨S512x256x256, .f32⟩ : BufTy).Contents (Elt Ideal))
    (x2 : (⟨S512x256, .f32⟩ : BufTy).Contents (Elt Ideal)) (x3 x4 : (⟨S262144, .i32⟩ : BufTy).Contents (Elt Ideal)) :
    val_main_v18 (F := Ideal) x0 x1 x2 x3 x4
      = affine (val_main_v14 (F := Ideal) x0 x3 x4) x1 (val_main_v16 (F := Ideal) x2) := by
  funext i
  rw [val_main_v18_apply, val_main_v15_apply, val_main_v17_apply]
  have el : ∀ k : Fin 256, lidx_main_v15 i k = ix3 (i 0) (i 1) k := fun k => funext fun a => by
    match a with
    | ⟨0, _⟩ => rfl
    | ⟨1, _⟩ => rfl
    | ⟨2, _⟩ => rfl
  have er : ∀ k : Fin 256, ridx_main_v15 i k = ix3 (i 0) k (i 2) := fun k => funext fun a => by
    match a with
    | ⟨0, _⟩ => rfl
    | ⟨1, _⟩ => rfl
    | ⟨2, _⟩ => rfl
  have eb : idx_main_v17 i = ix3 (i 0) (0 : Fin 1) (i 2) := funext fun a => by
    match a with
    | ⟨0, _⟩ => rfl
    | ⟨1, _⟩ => rfl
    | ⟨2, _⟩ => rfl
  show (∑ k : Fin 256, _ * _) + _ = affineAt _ _ _ (i 0) (i 1) (i 2)
  unfold affineAt
  refine congrArg₂ (· + ·) (Finset.sum_congr rfl fun k _ => ?_) ?_
  · rw [el k, er k]; rfl
  · rw [eb]; rfl

end Cert.ReferenceIdeal.Mid

end
-- ==== Proof.Bridge.lean ====
/-
  The reference's program, read with the kernel program's names.

  The reference builds the same (network, slot) pairs, scatters the input rows into the same zero array and gathers from
  the padded result with the same pairs as the kernel's program does around its call; between the two it applies the
  grouped affine map (`Mid.affine_eq`). So its result is: the rows gathered from the grouped affine map of the scattered
  input, the weights and the bias with a unit middle axis — the expression the kernel program's run ends with.
-/
import proofs.«420919_j41695542509718_4_alg».proof.Proof.RefAffine
import proofs.«420919_j41695542509718_4_alg».proof.Proof.Glue

noncomputable section

namespace Cert.Bridge

open Idealize.ShloMosaic Cert.GroupedAffine
open Cert.ReferenceIdeal Cert.ReferenceIdeal.Read

variable (x0 : (⟨S262144x256, .f32⟩ : BufTy).Contents (Elt Ideal)) (x1 : (⟨S512x256x256, .f32⟩ : BufTy).Contents (Elt Ideal))
  (x2 : (⟨S512x256, .f32⟩ : BufTy).Contents (Elt Ideal)) (x3 x4 : (⟨S262144, .i32⟩ : BufTy).Contents (Elt Ideal))

/-- The reference's pairs for the scatter are the kernel program's. -/
theorem pairs_in : val_main_v13 (F := Ideal) x3 x4 = Cert.KernelIdeal.Glue.pairs x3 x4 := rfl

/-- The reference's pairs for the gather are the same pairs. -/
theorem pairs_out : val_main_v31 (F := Ideal) x3 x4 = Cert.KernelIdeal.Glue.pairs x3 x4 := rfl

/-- The reference scatters into the same padded array. -/
theorem padded_eq : val_main_v14 (F := Ideal) x0 x3 x4 = Cert.KernelIdeal.Glue.padded x0 x3 x4 := by
  unfold val_main_v14 Cert.KernelIdeal.Glue.padded
  rw [pairs_in]
  rfl

/-- The reference gives the bias the same unit middle axis. -/
theorem bias_eq : val_main_v16 (F := Ideal) x2 = Cert.KernelIdeal.Glue.bias3 x2 := rfl

/-- The reference's result, in the kernel program's terms. -/
theorem result_eq :
    val_main_v32 (F := Ideal) x0 x1 x2 x3 x4
      = Cert.KernelIdeal.Glue.rows (affine (Cert.KernelIdeal.Glue.padded x0 x3 x4) x1 (Cert.KernelIdeal.Glue.bias3 x2)) x3 x4 := by
  unfold val_main_v32 Cert.KernelIdeal.Glue.rows
  rw [Cert.ReferenceIdeal.Mid.affine_eq, padded_eq, bias_eq, pairs_out]
  rfl

end Cert.Bridge

end
-- ==== Proof.lean ====
/-
  The kernel's program and its reference compute the same rows.

  Both programs scatter the 262144 input rows into a zero [512, 768, 256] array at their (network, slot) pairs, apply to
  it, to the weights and to the bias the grouped affine map

      y[n, r, o] = (∑ k < 256, xp[n, r, k] · w[n, k, o]) + b[n, o],

  and gather the rows back at the same pairs. The reference applies the map as one batched product plus a broadcast bias
  (`Mid.affine_eq`); the kernel applies it four networks per grid point, each network a [768, 256] × [256, 256] product
  whose factors' narrowing to bf16 is the identity on the extended reals, and its 128 output blocks tile the padded array
  (`Padded.final`). The scatter and the gather are the same operations on the same operands in both programs and are never
  opened; the map is compared entry by entry, and as sums and products of extended reals need no finiteness to be
  rearranged here (the two sides are the same sum), the precondition is not used.

  The three frames: the kernel's two programs by their generated frame certificates; the reference's by its generated run
  with the result dropped. No operation was rewritten by the idealization, so there is nothing to preserve.
-/
import proofs.«420919_j41695542509718_4_alg».proof.Defs
import proofs.«420919_j41695542509718_4_alg».proof.Proof.Gen.Kernel
import proofs.«420919_j41695542509718_4_alg».proof.Proof.Gen.Kernel.Skeleton
import proofs.«420919_j41695542509718_4_alg».proof.Proof.Gen.Kernel.Launch
import proofs.«420919_j41695542509718_4_alg».proof.Proof.Gen.Kernel.Points
import proofs.«420919_j41695542509718_4_alg».proof.Proof.Gen.Kernel.Frame
import proofs.«420919_j41695542509718_4_alg».proof.Proof.Gen.KernelIdeal
import proofs.«420919_j41695542509718_4_alg».proof.Proof.Gen.KernelIdeal.Skeleton
import proofs.«420919_j41695542509718_4_alg».proof.Proof.Gen.KernelIdeal.Launch
import proofs.«420919_j41695542509718_4_alg».proof.Proof.Gen.KernelIdeal.Points
import proofs.«420919_j41695542509718_4_alg».proof.Proof.Gen.KernelIdeal.Frame
import proofs.«420919_j41695542509718_4_alg».proof.Proof.Gen.ReferenceIdeal
import proofs.«420919_j41695542509718_4_alg».proof.Proof.Gen.Pre_finite_inputs
import proofs.«420919_j41695542509718_4_alg».proof.Proof.Gen.ReferenceIdeal.Run
import proofs.«420919_j41695542509718_4_alg».proof.Proof.Gen.ReferenceIdeal.Read
import proofs.«420919_j41695542509718_4_alg».proof.Proof.Glue
import proofs.«420919_j41695542509718_4_alg».proof.Proof.Bridge
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.Value.run (F := Ideal) m ρ)

/-- From memories agreeing on the five arguments both programs end at the rows gathered from the grouped affine map of the
    scattered input, the weights and the bias. -/
theorem algebraic : Cert.algebraic_KernelIdeal_ReferenceIdeal := by
  intro m ρ m' ρ' _ hagree
  refine ⟨_, Cert.KernelIdeal.Glue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  refine (Cert.ReferenceIdeal.Read.val_main_v32_eq _ _ _ _ _).trans ?_
  exact Cert.Bridge.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
